-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S8388608x1 : Shape := ⟨2, ![8388608, 1]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel
  bcast_S_S8388608x1 : S_.BroadcastsInDim S8388608x1 (![] : Fin 0 → Fin S8388608x1.rank)
  reducesTo_S8388608x1_S_d0_1 : S8388608x1.ReducesTo [0, 1] S_

variable [Facts]

def fn {F : FTy → Type} [FloatOps F] (main_arg0 : FVec F S8388608x4 .f32) (main_arg1 : FVec F S8388608x1 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x1 .f32 := Host.absf main_arg1
  let main_cst_0 : FVec F S_ .f32 := constant S_ .f32 0x7F800000#32
  let main_v5 : FVec F S8388608x1 .f32 := broadcastInDim S8388608x1 ![] bcast_S_S8388608x1 main_cst_0
  let main_v6 : IVec S8388608x1 1 := cmpf .olt main_v4 main_v5
  let main_c_1 : IVec S_ 1 := constantI S_ 1 1#1
  let main_v7 : IVec S_ 1 := (fun x v => Host.reduce IntOp.andi x v reducesTo_S8388608x1_S_d0_1 h_S_) main_v6 main_c_1
  let main_v8 : IVec S_ 1 := andi main_v3 main_v7
  main_v8
-- ==== Kernel.lean ====
abbrev S8388608x4 : Shape := ⟨2, ![8388608, 4]⟩
abbrev S8388608x1 : Shape := ⟨2, ![8388608, 1]⟩
abbrev S8192x4 : Shape := ⟨2, ![8192, 4]⟩
abbrev S8192x1 : Shape := ⟨2, ![8192, 1]⟩
abbrev S8192 : Shape := ⟨1, ![8192]⟩

abbrev nBuf : Space → Nat
  | .hbm => 3
  | .vmem => 6
  | .smem => 0
  | _ => 0

abbrev bufTy : (tb : Table) → Fin (tcTables nBuf tb) → BufTy
  | .hbm, ⟨0, _⟩ => ⟨S8388608x4, .f32⟩
  | .hbm, ⟨1, _⟩ => ⟨S8388608x1, .f32⟩
  | .hbm, ⟨2, _⟩ => ⟨S8388608x4, .f32⟩
  | .local _ .vmem, ⟨0, _⟩ => ⟨S8192x4, .f32⟩
  | .local _ .vmem, ⟨1, _⟩ => ⟨S8192x4, .f32⟩
  | .local _ .vmem, ⟨2, _⟩ => ⟨S8192x1, .f32⟩
  | .local _ .vmem, ⟨3, _⟩ => ⟨S8192x1, .f32⟩
  | .local _ .vmem, ⟨4, _⟩ => ⟨S8192x4, .f32⟩
  | .local _ .vmem, ⟨5, _⟩ => ⟨S8192x4, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x4_S8192x1_0_0 : ∀ a, (![0, 0] : Fin 2 → Nat) a + S8192x1.size a ≤ S8192x4.size a
  h_S8192x1 : 0 < S8192x1.numel
  shapeCasts_S8192x1_S8192 : S8192x1.ShapeCasts S8192
  inb_S8192x4_S8192x1_0_1 : ∀ a, (![0, 1] : Fin 2 → Nat) a + S8192x1.size a ≤ S8192x4.size a
  inb_S8192x4_S8192x1_0_2 : ∀ a, (![0, 2] : Fin 2 → Nat) a + S8192x1.size a ≤ S8192x4.size a
  inb_S8192x4_S8192x1_0_3 : ∀ a, (![0, 3] : Fin 2 → Nat) a + S8192x1.size a ≤ S8192x4.size a
  inb_S8192x1_S8192x1_0_0 : ∀ a, (![0, 0] : Fin 2 → Nat) a + S8192x1.size a ≤ S8192x1.size a
  shapeCasts_S8192_S8192x1 : S8192.ShapeCasts S8192x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x4.size a ≤ S8388608x4.size a
  hwx0_0 : ∀ i : grid0.Coords, EltTy.bits .f32 = 32 ∨ (Rect.block (s := S8388608x4) S8192x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S8388608x1.size a
  hwx0_1 : ∀ i : grid0.Coords, EltTy.bits .f32 = 32 ∨ (Rect.block (s := S8388608x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x4.size a ≤ S8388608x4.size a
  hwx0_2 : ∀ i : grid0.Coords, EltTy.bits .f32 = 32 ∨ (Rect.block (s := S8388608x4) S8192x4.size (cc0_transform_2 i) (hinb0_2 i)).WholeWords (EltTy.packing .f32)

variable [Facts₀]

abbrev win0_0 : Pipeline.Window sig grid0 :=
  Pipeline.Window.ofSpec (Memref.whole main_arg0) S8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x4 : Shape := ⟨2, ![8388608, 4]⟩
abbrev S8388608x1 : Shape := ⟨2, ![8388608, 1]⟩
abbrev S8388608 : Shape := ⟨1, ![8388608]⟩
abbrev S_ : Shape := ⟨0, ![]⟩
abbrev S8388608x2 : Shape := ⟨2, ![8388608, 2]⟩

abbrev nBuf : Space → Nat
  | .hbm => 96
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x1, .f32⟩
  | .hbm, ⟨2, _⟩ => ⟨S8388608x1, .f32⟩
  | .hbm, ⟨3, _⟩ => ⟨S8388608, .f32⟩
  | .hbm, ⟨4, _⟩ => ⟨S8388608x1, .f32⟩
  | .hbm, ⟨5, _⟩ => ⟨S8388608, .f32⟩
  | .hbm, ⟨6, _⟩ => ⟨S8388608x1, .f32⟩
  | .hbm, ⟨7, _⟩ => ⟨S8388608, .f32⟩
  | .hbm, ⟨8, _⟩ => ⟨S8388608, .f32⟩
  | .hbm, ⟨9, _⟩ => ⟨S8388608, .f32⟩
  | .hbm, ⟨10, _⟩ => ⟨S8388608, .f32⟩
  | .hbm, ⟨11, _⟩ => ⟨S_, .f32⟩
  | .hbm, ⟨12, _⟩ => ⟨S8388608, .f32⟩
  | .hbm, ⟨13, _⟩ => ⟨S8388608, .f32⟩
  | .hbm, ⟨14, _⟩ => ⟨S_, .f32⟩
  | .hbm, ⟨15, _⟩ => ⟨S8388608, .f32⟩
  | .hbm, ⟨16, _⟩ => ⟨S8388608, .f32⟩
  | .hbm, ⟨17, _⟩ => ⟨S_, .f32⟩
  | .hbm, ⟨18, _⟩ => ⟨S8388608, .f32⟩
  | .hbm, ⟨19, _⟩ => ⟨S_, .f32⟩
  | .hbm, ⟨20, _⟩ => ⟨S8388608, .f32⟩
  | .hbm, ⟨21, _⟩ => ⟨S8388608, .f32⟩
  | .hbm, ⟨22, _⟩ => ⟨S_, .f32⟩
  | .hbm, ⟨23, _⟩ => ⟨S8388608, .f32⟩
  | .hbm, ⟨24, _⟩ => ⟨S8388608, .f32⟩
  | .hbm, ⟨25, _⟩ => ⟨S_, .f32⟩
  | .hbm, ⟨26, _⟩ => ⟨S8388608, .f32⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S8388608, .f32⟩
  | .hbm, ⟨31, _⟩ => ⟨S_, .f32⟩
  | .hbm, ⟨32, _⟩ => ⟨S8388608, .f32⟩
  | .hbm, ⟨33, _⟩ => ⟨S8388608, .f32⟩
  | .hbm, ⟨34, _⟩ => ⟨S8388608, .f32⟩
  | .hbm, ⟨35, _⟩ => ⟨S8388608, .f32⟩
  | .hbm, ⟨36, _⟩ => ⟨S_, .f32⟩
  | .hbm, ⟨37, _⟩ => ⟨S8388608, .f32⟩
  | .hbm, ⟨38, _⟩ => ⟨S8388608, .f32⟩
  | .hbm, ⟨39, _⟩ => ⟨S8388608, .f32⟩
  | .hbm, ⟨40, _⟩ => ⟨S_, .f32⟩
  | .hbm, ⟨41, _⟩ => ⟨S8388608, .f32⟩
  | .hbm, ⟨42, _⟩ => ⟨S8388608, .f32⟩
  | .hbm, ⟨43, _⟩ => ⟨S8388608, .f32⟩
  | .hbm, ⟨44, _⟩ => ⟨S8388608, .f32⟩
  | .hbm, ⟨45, _⟩ => ⟨S_, .f32⟩
  | .hbm, ⟨46, _⟩ => ⟨S8388608, .f32⟩
  | .hbm, ⟨47, _⟩ => ⟨S_, .f32⟩
  | .hbm, ⟨48, _⟩ => ⟨S8388608, .f32⟩
  | .hbm, ⟨49, _⟩ => ⟨S8388608, .f32⟩
  | .hbm, ⟨50, _⟩ => ⟨S8388608, .f32⟩
  | .hbm, ⟨51, _⟩ => ⟨S_, .f32⟩
  | .hbm, ⟨52, _⟩ => ⟨S8388608, .f32⟩
  | .hbm, ⟨53, _⟩ => ⟨S8388608, .f32⟩
  | .hbm, ⟨54, _⟩ => ⟨S_, .f32⟩
  | .hbm, ⟨55, _⟩ => ⟨S8388608, .f32⟩
  | .hbm, ⟨56, _⟩ => ⟨S8388608, .f32⟩
  | .hbm, ⟨57, _⟩ => ⟨S8388608, .f32⟩
  | .hbm, ⟨58, _⟩ => ⟨S_, .f32⟩
  | .hbm, ⟨59, _⟩ => ⟨S8388608, .f32⟩
  | .hbm, ⟨60, _⟩ => ⟨S8388608, .f32⟩
  | .hbm, ⟨61, _⟩ => ⟨S_, .f32⟩
  | .hbm, ⟨62, _⟩ => ⟨S8388608, .f32⟩
  | .hbm, ⟨63, _⟩ => ⟨S8388608, .f32⟩
  | .hbm, ⟨64, _⟩ => ⟨S8388608, .f32⟩
  | .hbm, ⟨65, _⟩ => ⟨S8388608, .f32⟩
  | .hbm, ⟨66, _⟩ => ⟨S8388608, .f32⟩
  | .hbm, ⟨67, _⟩ => ⟨S8388608, .f32⟩
  | .hbm, ⟨68, _⟩ => ⟨S8388608, .f32⟩
  | .hbm, ⟨69, _⟩ => ⟨S8388608, .f32⟩
  | .hbm, ⟨70, _⟩ => ⟨S8388608, .f32⟩
  | .hbm, ⟨71, _⟩ => ⟨S8388608, .f32⟩
  | .hbm, ⟨72, _⟩ => ⟨S8388608, .f32⟩
  | .hbm, ⟨73, _⟩ => ⟨S8388608, .f32⟩
  | .hbm, ⟨74, _⟩ => ⟨S8388608, .f32⟩
  | .hbm, ⟨75, _⟩ => ⟨S8388608, .f32⟩
  | .hbm, ⟨76, _⟩ => ⟨S8388608, .f32⟩
  | .hbm, ⟨77, _⟩ => ⟨S8388608, .f32⟩
  | .hbm, ⟨78, _⟩ => ⟨S8388608, .f32⟩
  | .hbm, ⟨79, _⟩ => ⟨S8388608, .f32⟩
  | .hbm, ⟨80, _⟩ => ⟨S8388608x1, .f32⟩
  | .hbm, ⟨81, _⟩ => ⟨S8388608x1, .f32⟩
  | .hbm, ⟨82, _⟩ => ⟨S8388608x1, .f32⟩
  | .hbm, ⟨83, _⟩ => ⟨S8388608x1, .f32⟩
  | .hbm, ⟨84, _⟩ => ⟨S8388608x4, .f32⟩
  | .hbm, ⟨85, _⟩ => ⟨S_, .f32⟩
  | .hbm, ⟨86, _⟩ => ⟨S8388608x4, .f32⟩
  | .hbm, ⟨87, _⟩ => ⟨S8388608x4, .f32⟩
  | .hbm, ⟨88, _⟩ => ⟨S8388608x4, .f32⟩
  | .hbm, ⟨89, _⟩ => ⟨S8388608x2, .f32⟩
  | .hbm, ⟨90, _⟩ => ⟨S8388608x2, .f32⟩
  | .hbm, ⟨91, _⟩ => ⟨S_, .f32⟩
  | .hbm, ⟨92, _⟩ => ⟨S8388608x2, .f32⟩
  | .hbm, ⟨93, _⟩ => ⟨S8388608x2, .f32⟩
  | .hbm, ⟨94, _⟩ => ⟨S8388608x2, .f32⟩
  | .hbm, ⟨95, _⟩ => ⟨S8388608x4, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_12 : Ref sig .tc := ⟨.hbm, 58, rfl⟩
abbrev main_v43 : Ref sig .tc := ⟨.hbm, 59, rfl⟩
abbrev main_v44 : Ref sig .tc := ⟨.hbm, 60, rfl⟩
abbrev main_cst_13 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_14 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_15 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]

class Facts₀ : Prop where
  slices_S8388608x4_S8388608x1_0_1 : S8388608x4.Slices ![0, 1] S8388608x1
  shapeCasts_S8388608x1_S8388608 : S8388608x1.ShapeCasts S8388608
  slices_S8388608x4_S8388608x1_0_2 : S8388608x4.Slices ![0, 2] S8388608x1
  slices_S8388608x4_S8388608x1_0_3 : S8388608x4.Slices ![0, 3] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x1_S8388608x1_S8388608x4_d1 : Shape.Concatenates [S8388608x1, S8388608x1, S8388608x1, S8388608x1] S8388608x4 1
  bcast_S_S8388608x4 : S_.BroadcastsInDim S8388608x4 (![] : Fin 0 → Fin S8388608x4.rank)
  slices_S8388608x4_S8388608x2_0_2 : S8388608x4.Slices ![0, 2] S8388608x2
  slices_S8388608x4_S8388608x2_0_0 : S8388608x4.Slices ![0, 0] S8388608x2
  bcast_S_S8388608x2 : S_.BroadcastsInDim S8388608x2 (![] : Fin 0 → Fin S8388608x2.rank)
  concatenates_S8388608x2_S8388608x2_S8388608x4_d1 : Shape.Concatenates [S8388608x2, S8388608x2] S8388608x4 1

variable [Facts₀]

class Facts : Prop extends Facts₀ where

variable [Facts]
-- ==== Proof.Pendulum.lean ====
/-
  One explicit time step of a rotary (Furuta) pendulum, row by row: the state of a row is
  (arm angle, pendulum angle β, arm velocity da, pendulum velocity db), the control one motor voltage a.
  With s = sin β and c = cos β the mass matrix is [[m11, m12], [m12, J2]],
    m11 = J1 + (¼ m ℓp²) s²,   m12 = (½ m ℓr ℓp) c,
  the Coriolis and centrifugal terms are
    n1 = (½ m ℓp) s (ℓp da db c − ℓr db²),   n2 = (½ m ℓp) s (−½ ℓp da² c),
  gravity acts on the pendulum alone, g2 = (½ m g ℓp) s, and the motor torque is
    τ = kt (−5 a − km da) / Rm.
  The accelerations solve the 2×2 system by Cramer's rule over det = m11 J2 − m12²,
    dd1 = (J2 r1 − m12 r2) / det,   dd2 = (−m12 r1 + m11 r2) / det,   r1 = τ − n1,  r2 = −n2 − g2,
  and the step is symplectic Euler: the velocities move by dt times the accelerations, the angles by dt times the
  NEW velocities. Every product of the model's parameters is one binary32 word that both programs carry, so the
  words are kept as they are and never evaluated. The functions below fix ONE association of each product
  (to the left) and spell a negation as a difference from zero; `step` lists the four new coordinates of a row,
  `next` applies it to every row of the state and action arrays and `nextBlock` to every row of a block of 8192 rows.
-/
import Idealize.ShloMosaic.PureOps.Ideal
import Idealize.ShloMosaic.PureOps.Ideal.Laws
import Idealize.ShloMosaic.Lib.ValueIdx

noncomputable section

namespace Cert.Pendulum

open Idealize.ShloMosaic Idealize.ShloMosaic.ValueIdx

/-! ## The parameters' words -/

/-- The arm's inertia J1. -/
abbrev J1 : EReal := Ideal.ofBits .f32 0x3971CD37#32
/-- The pendulum's inertia J2. -/
abbrev J2 : EReal := Ideal.ofBits .f32 0x390B98D0#32
/-- ¼ m ℓp², the factor of sin² β in m11. -/
abbrev cS : EReal := Ideal.ofBits .f32 0x38D1646A#32
/-- ½ m ℓr ℓp, the factor of cos β in m12. -/
abbrev cC : EReal := Ideal.ofBits .f32 0x3909F8BD#32
/-- ½ m ℓp, the common factor of n1 and n2. -/
abbrev cH : EReal := Ideal.ofBits .f32 0x3ACAE643#32
/-- The pendulum's length ℓp. -/
abbrev LP : EReal := Ideal.ofBits .f32 0x3E041893#32
/-- The arm's length ℓr. -/
abbrev LR : EReal := Ideal.ofBits .f32 0x3DAE147B#32
/-- −½ ℓp. -/
abbrev cN : EReal := Ideal.ofBits .f32 0xBD841893#32
/-- ½ m g ℓp, the factor of sin β in the gravity term. -/
abbrev cG : EReal := Ideal.ofBits .f32 0x3C788D45#32
/-- −5, the voltage gain. -/
abbrev cV : EReal := Ideal.ofBits .f32 0xC0A00000#32
/-- The motor's torque constant kt, which is also its back-EMF constant km. -/
abbrev KT : EReal := Ideal.ofBits .f32 0x3D2C0831#32
/-- The motor's resistance Rm. -/
abbrev RM : EReal := Ideal.ofBits .f32 0x41066666#32
/-- The time step dt. -/
abbrev DT : EReal := Ideal.ofBits .f32 0x3C23D70A#32
/-- The zero word. -/
abbrev Z : EReal := Ideal.ofBits .f32 0x00000000#32

theorem Z_eq : Z = 0 := Ideal.ofBits_zero_f32

/-! ## One row -/

def m11 (β : EReal) : EReal := J1 + cS * Ideal.sin β * Ideal.sin β
def m12 (β : EReal) : EReal := cC * Ideal.cos β
def n1 (β da db : EReal) : EReal := cH * Ideal.sin β * (LP * da * db * Ideal.cos β - LR * db * db)
def n2 (β da : EReal) : EReal := cH * Ideal.sin β * (cN * da * da * Ideal.cos β)
def g2 (β : EReal) : EReal := cG * Ideal.sin β
def tau (da a : EReal) : EReal := Ideal.div (KT * (cV * a - KT * da)) RM
def r1 (β da db a : EReal) : EReal := tau da a - n1 β da db
def r2 (β da : EReal) : EReal := Z - n2 β da - g2 β
def det (β : EReal) : EReal := m11 β * J2 - m12 β * m12 β
def dd1 (β da db a : EReal) : EReal := Ideal.div (J2 * r1 β da db a - m12 β * r2 β da) (det β)
def dd2 (β da db a : EReal) : EReal := Ideal.div ((Z - m12 β) * r1 β da db a + m11 β * r2 β da) (det β)
/-- The new arm velocity. -/
def vel0 (β da db a : EReal) : EReal := da + dd1 β da db a * DT
/-- The new pendulum velocity. -/
def vel1 (β da db a : EReal) : EReal := db + dd2 β da db a * DT
/-- The new arm angle. -/
def pos0 (p β da db a : EReal) : EReal := p + vel0 β da db a * DT
/-- The new pendulum angle. -/
def pos1 (β da db a : EReal) : EReal := β + vel1 β da db a * DT

/-- The four new coordinates of a row: angles first, then velocities. -/
def step (p β da db a : EReal) : Fin 4 → EReal := fun j => match j with
  | ⟨0, _⟩ => pos0 p β da db a
  | ⟨1, _⟩ => pos1 β da db a
  | ⟨2, _⟩ => vel0 β da db a
  | ⟨3, _⟩ => vel1 β da db a

/-! ## The same row with the products and negations as the plain array program writes them

Squares taken first (c · (x · x) for (c · x) · x), a true negation for the difference from zero, and a zero
subtracted from r1: on the extended reals multiplication is associative, 0 − x = −x and x − 0 = x without any
condition, so nothing here needs the inputs to be finite. -/

theorem m11_sq (β : EReal) : J1 + cS * (Ideal.sin β * Ideal.sin β) = m11 β := by
  unfold m11; rw [mul_assoc]
theorem n1_sq (β da db : EReal) :
    cH * Ideal.sin β * (LP * da * db * Ideal.cos β - LR * (db * db)) = n1 β da db := by
  unfold n1; rw [mul_assoc LR db db]
theorem n2_sq (β da : EReal) : cH * Ideal.sin β * (cN * (da * da) * Ideal.cos β) = n2 β da := by
  unfold n2; rw [mul_assoc cN da da]
theorem r1_sub_zero (β da db a : EReal) : tau da a - n1 β da db - Z = r1 β da db a := by
  unfold r1; rw [Z_eq, sub_zero]
theorem r2_neg (β da : EReal) : -(n2 β da) - g2 β = r2 β da := by
  unfold r2; rw [Z_eq, zero_sub]
theorem dd2_neg (β da db a : EReal) :
    Ideal.div (-(m12 β) * r1 β da db a + m11 β * r2 β da) (det β) = dd2 β da db a := by
  unfold dd2; rw [Z_eq, zero_sub]

/-! ## Every row of the arrays, and of a block -/

/-- The whole arrays: row `R` of the result is `step` of row `R` of the state and of the action. -/
def next (X : (⟨2, ![8388608, 4]⟩ : Shape).Idx → EReal) (A : (⟨2, ![8388608, 1]⟩ : Shape).Idx → EReal) :
    (⟨2, ![8388608, 4]⟩ : Shape).Idx → EReal := fun i =>
  step (X (ix2 (n0 := 8388608) (n1 := 4) (i 0) 0)) (X (ix2 (n0 := 8388608) (n1 := 4) (i 0) 1))
    (X (ix2 (n0 := 8388608) (n1 := 4) (i 0) 2)) (X (ix2 (n0 := 8388608) (n1 := 4) (i 0) 3))
    (A (ix2 (n0 := 8388608) (n1 := 1) (i 0) 0)) (i 1)

/-- A block of 8192 rows: the same, row by row. -/
def nextBlock (x : (⟨2, ![8192, 4]⟩ : Shape).Idx → EReal) (a : (⟨2, ![8192, 1]⟩ : Shape).Idx → EReal) :
    (⟨2, ![8192, 4]⟩ : Shape).Idx → EReal := fun y =>
  step (x (ix2 (n0 := 8192) (n1 := 4) (y 0) 0)) (x (ix2 (n0 := 8192) (n1 := 4) (y 0) 1))
    (x (ix2 (n0 := 8192) (n1 := 4) (y 0) 2)) (x (ix2 (n0 := 8192) (n1 := 4) (y 0) 3))
    (a (ix2 (n0 := 8192) (n1 := 1) (y 0) 0)) (y 1)

/-- A block's row is the array's row: where the block's entries are the arrays' entries of a row (`hx`, `ha`) and the
    column is the same (`hj`), the block's step is the arrays' step there. -/
theorem nextBlock_eq_next (x : (⟨2, ![8192, 4]⟩ : Shape).Idx → EReal) (a : (⟨2, ![8192, 1]⟩ : Shape).Idx → EReal)
    (X : (⟨2, ![8388608, 4]⟩ : Shape).Idx → EReal) (A : (⟨2, ![8388608, 1]⟩ : Shape).Idx → EReal)
    (r : Fin 8192) (R : Fin 8388608) (j : Fin 4)
    (hx : ∀ k : Fin 4, x (ix2 r k) = X (ix2 R k)) (ha : a (ix2 r (0 : Fin 1)) = A (ix2 R (0 : Fin 1))) :
    nextBlock x a (ix2 r j) = next X A (ix2 R j) := by
  show step (x (ix2 r 0)) (x (ix2 r 1)) (x (ix2 r 2)) (x (ix2 r 3)) (a (ix2 r 0)) j
    = step (X (ix2 R 0)) (X (ix2 R 1)) (X (ix2 R 2)) (X (ix2 R 3)) (A (ix2 R 0)) j
  rw [hx 0, hx 1, hx 2, hx 3, ha]

end Cert.Pendulum

end
-- ==== Proof.Block.lean ====
/-
  What the kernel's body leaves in its output block: every row of the block moved one time step.
  The body reads the four state columns and the action column of a block of 8192 rows as flat vectors, computes the
  step's four results as flat vectors and stores each as one column of the output block; the four stores tile the
  block. Here: a loaded column at a row is the block's entry in that row and column; each stored column at a row is
  the corresponding coordinate of `Pendulum.step` of that row (the body's operations ARE the step's, in the same
  association, so this is by unfolding); hence the block the body leaves is `Pendulum.nextBlock` of the input blocks.
-/
import proofs.«176411_j82085414961423_1_alg».proof.Proof.Gen.KernelIdeal.Frame
import proofs.«176411_j82085414961423_1_alg».proof.Proof.Pendulum
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Pendulum

/-! ## Columns in and out -/

/-- A flat vector recast as a one-column block reads, at row `r`, the vector's entry `r`. -/
theorem column_of_flat (v : FVec Ideal S8192 .f32) (r : Fin 8192) :
    shapeCast S8192x1 v Facts₀.shapeCasts_S8192_S8192x1 (ix2 r (0 : Fin 1)) = v (ix1 r) :=
  shapeCast_apply v Facts₀.shapeCasts_S8192_S8192x1 (ix2 r (0 : Fin 1)) (ix1 r)
    (by rewrite [Shape.rowMajor_val_one, Shape.rowMajor_val_two]; show r.val = r.val * 1 + 0; omega)

/-- A one-column block recast as a flat vector reads, at entry `r`, the block's row `r`. -/
theorem flat_of_column (v : Vec Ideal S8192x1 .f32) (r : Fin 8192) :
    shapeCast S8192 v Facts₀.shapeCasts_S8192x1_S8192 (ix1 r) = v (ix2 r (0 : Fin 1)) :=
  shapeCast_apply v Facts₀.shapeCasts_S8192x1_S8192 (ix1 r) (ix2 r (0 : Fin 1))
    (by rewrite [Shape.rowMajor_val_two, Shape.rowMajor_val_one]; show r.val * 1 + 0 = r.val; omega)

/-- Column `k` of the state block, loaded, at row `r`: the block's entry `(r, k)`. -/
theorem ld_col0 (x0 : Vec Ideal S8192x4 .f32) (r : Fin 8192) : View.ld x0 r0_0 (ix2 r (0 : Fin 1)) = x0 (ix2 r (0 : Fin 4)) := by
  show x0 (r0_0.idx (ix2 r (0 : Fin 1))) = _
  congr 1; funext a; apply Fin.ext
  match a with
  | ⟨0, _⟩ => show 0 + 1 * r.val = r.val; omega
  | ⟨1, _⟩ => show 0 + 1 * 0 = 0; rfl
theorem ld_col1 (x0 : Vec Ideal S8192x4 .f32) (r : Fin 8192) : View.ld x0 r0_1 (ix2 r (0 : Fin 1)) = x0 (ix2 r (1 : Fin 4)) := by
  show x0 (r0_1.idx (ix2 r (0 : Fin 1))) = _
  congr 1; funext a; apply Fin.ext
  match a with
  | ⟨0, _⟩ => show 0 + 1 * r.val = r.val; omega
  | ⟨1, _⟩ => show 1 + 1 * 0 = 1; rfl
theorem ld_col2 (x0 : Vec Ideal S8192x4 .f32) (r : Fin 8192) : View.ld x0 r0_2 (ix2 r (0 : Fin 1)) = x0 (ix2 r (2 : Fin 4)) := by
  show x0 (r0_2.idx (ix2 r (0 : Fin 1))) = _
  congr 1; funext a; apply Fin.ext
  match a with
  | ⟨0, _⟩ => show 0 + 1 * r.val = r.val; omega
  | ⟨1, _⟩ => show 2 + 1 * 0 = 2; rfl
theorem ld_col3 (x0 : Vec Ideal S8192x4 .f32) (r : Fin 8192) : View.ld x0 r0_3 (ix2 r (0 : Fin 1)) = x0 (ix2 r (3 : Fin 4)) := by
  show x0 (r0_3.idx (ix2 r (0 : Fin 1))) = _
  congr 1; funext a; apply Fin.ext
  match a with
  | ⟨0, _⟩ => show 0 + 1 * r.val = r.val; omega
  | ⟨1, _⟩ => show 3 + 1 * 0 = 3; rfl
/-- The action block's one column, loaded, at row `r`. -/
theorem ld_act (x1 : Vec Ideal S8192x1 .f32) (r : Fin 8192) : View.ld x1 r0_4 (ix2 r (0 : Fin 1)) = x1 (ix2 r (0 : Fin 1)) := by
  show x1 (r0_4.idx (ix2 r (0 : Fin 1))) = _
  congr 1; funext a; apply Fin.ext
  match a with
  | ⟨0, _⟩ => show 0 + 1 * r.val = r.val; omega
  | ⟨1, _⟩ => show 0 + 1 * 0 = 0; rfl

/-! ## The body's arithmetic at a row -/

section Row
variable (v0 v2 v4 v6 v8 : Vec Ideal S8192x1 .f32) (r : Fin 8192)

/-- The new arm velocity, as the body computes it from the flattened columns. -/
theorem vel0_row :
    k0_pay19 (k0_pay6 v4) (k0_pay8 v8) (k0_pay11 v2) (k0_pay12 v2) (k0_pay13 v2 v4 v6) (k0_pay14 v2 v4) (k0_pay15 v2)
        (Scalar.ofBits .f32 0xC0A00000#32) (ix1 r)
      = vel0 (k0_pay5 v2 (ix1 r)) (k0_pay6 v4 (ix1 r)) (k0_pay7 v6 (ix1 r)) (k0_pay8 v8 (ix1 r)) := rfl

/-- The new pendulum velocity. -/
theorem vel1_row :
    k0_pay20 (k0_pay6 v4) (k0_pay7 v6) (k0_pay8 v8) (k0_pay11 v2) (k0_pay12 v2) (k0_pay13 v2 v4 v6) (k0_pay14 v2 v4) (k0_pay15 v2)
        (Scalar.ofBits .f32 0xC0A00000#32) (ix1 r)
      = vel1 (k0_pay5 v2 (ix1 r)) (k0_pay6 v4 (ix1 r)) (k0_pay7 v6 (ix1 r)) (k0_pay8 v8 (ix1 r)) := rfl

/-- The new pendulum angle. -/
theorem pos1_row :
    k0_pay21 (k0_pay5 v2) (k0_pay6 v4) (k0_pay7 v6) (k0_pay8 v8) (k0_pay11 v2) (k0_pay12 v2) (k0_pay13 v2 v4 v6) (k0_pay14 v2 v4) (k0_pay15 v2)
        (Scalar.ofBits .f32 0xC0A00000#32) (ix1 r)
      = pos1 (k0_pay5 v2 (ix1 r)) (k0_pay6 v4 (ix1 r)) (k0_pay7 v6 (ix1 r)) (k0_pay8 v8 (ix1 r)) := rfl

/-- The new arm angle. -/
theorem pos0_row :
    k0_pay22 (k0_pay4 v0) (k0_pay6 v4) (k0_pay8 v8) (k0_pay11 v2) (k0_pay12 v2) (k0_pay13 v2 v4 v6) (k0_pay14 v2 v4) (k0_pay15 v2)
        (Scalar.ofBits .f32 0xC0A00000#32) (ix2 r (0 : Fin 1))
      = pos0 (k0_pay4 v0 (ix1 r)) (k0_pay5 v2 (ix1 r)) (k0_pay6 v4 (ix1 r)) (k0_pay7 v6 (ix1 r)) (k0_pay8 v8 (ix1 r)) := by
  unfold k0_pay22
  exact column_of_flat _ r

end Row

/-! ## The block the body leaves -/

/-- Where a stored column's rectangle puts its row `r`: entry `(r, k)` of the block. -/
theorem emb_col0 (r : Fin 8192) : r0_0.emb (ix2 r (0 : Fin 1)) = ix2 r (0 : Fin 4) := by
  funext a; apply Fin.ext
  match a with
  | ⟨0, _⟩ => show 0 + 1 * r.val = r.val; omega
  | ⟨1, _⟩ => show 0 + 1 * 0 = 0; rfl
theorem emb_col1 (r : Fin 8192) : r0_1.emb (ix2 r (0 : Fin 1)) = ix2 r (1 : Fin 4) := by
  funext a; apply Fin.ext
  match a with
  | ⟨0, _⟩ => show 0 + 1 * r.val = r.val; omega
  | ⟨1, _⟩ => show 1 + 1 * 0 = 1; rfl
theorem emb_col2 (r : Fin 8192) : r0_2.emb (ix2 r (0 : Fin 1)) = ix2 r (2 : Fin 4) := by
  funext a; apply Fin.ext
  match a with
  | ⟨0, _⟩ => show 0 + 1 * r.val = r.val; omega
  | ⟨1, _⟩ => show 2 + 1 * 0 = 2; rfl
theorem emb_col3 (r : Fin 8192) : r0_3.emb (ix2 r (0 : Fin 1)) = ix2 r (3 : Fin 4) := by
  funext a; apply Fin.ext
  match a with
  | ⟨0, _⟩ => show 0 + 1 * r.val = r.val; omega
  | ⟨1, _⟩ => show 3 + 1 * 0 = 3; rfl

/-- A stored column at row `r` is the flat vector's entry `r`. -/
theorem pay1_at (v : FVec Ideal S8192 .f32) (r : Fin 8192) : k0_pay1 v (ix2 r (0 : Fin 1)) = v (ix1 r) := column_of_flat v r
theorem pay2_at (v : FVec Ideal S8192 .f32) (r : Fin 8192) : k0_pay2 v (ix2 r (0 : Fin 1)) = v (ix1 r) := column_of_flat v r
theorem pay3_at (v : FVec Ideal S8192 .f32) (r : Fin 8192) : k0_pay3 v (ix2 r (0 : Fin 1)) = v (ix1 r) := column_of_flat v r

/-- Every index of a one-column block is `(r, 0)`. -/
theorem eq_col (x : S8192x1.Idx) : ∃ r : Fin 8192, x = ix2 r (0 : Fin 1) := by
  have h1 : (x 1).val < 1 := (x 1).isLt
  exact ⟨x 0, (eq_ix2 x).trans (congrArg (ix2 (x 0)) (Fin.ext (by show (x 1).val = 0; omega)))⟩

/-- The flattened columns of the input blocks at a row are the blocks' entries of that row. -/
theorem flat0 (x0 : Vec Ideal S8192x4 .f32) (r : Fin 8192) : k0_pay4 (View.ld x0 r0_0) (ix1 r) = x0 (ix2 r (0 : Fin 4)) :=
  (flat_of_column _ r).trans (ld_col0 x0 r)
theorem flat1 (x0 : Vec Ideal S8192x4 .f32) (r : Fin 8192) : k0_pay5 (View.ld x0 r0_1) (ix1 r) = x0 (ix2 r (1 : Fin 4)) :=
  (flat_of_column _ r).trans (ld_col1 x0 r)
theorem flat2 (x0 : Vec Ideal S8192x4 .f32) (r : Fin 8192) : k0_pay6 (View.ld x0 r0_2) (ix1 r) = x0 (ix2 r (2 : Fin 4)) :=
  (flat_of_column _ r).trans (ld_col2 x0 r)
theorem flat3 (x0 : Vec Ideal S8192x4 .f32) (r : Fin 8192) : k0_pay7 (View.ld x0 r0_3) (ix1 r) = x0 (ix2 r (3 : Fin 4)) :=
  (flat_of_column _ r).trans (ld_col3 x0 r)
theorem flatA (x1 : Vec Ideal S8192x1 .f32) (r : Fin 8192) : k0_pay8 (View.ld x1 r0_4) (ix1 r) = x1 (ix2 r (0 : Fin 1)) :=
  (flat_of_column _ r).trans (ld_act x1 r)

/-- THE BODY'S RESULT: the output block is every row of the input blocks moved one step. Each of the four stored
    columns agrees with `nextBlock` under its rectangle, and the four rectangles cover the block. -/
theorem out_eq (x0 : Vec Ideal S8192x4 .f32) (x1 : Vec Ideal S8192x1 .f32) : out0_2 x0 x1 = nextBlock x0 x1 := by
  funext y
  unfold out0_2
  refine View.canon_apply_of_pieces (Val := Elt Ideal) (S := S8192x4) (e := .f32) (nextBlock x0 x1) _ ?_ y (cover0_2 _ _ _ _ y)
  intro pc hpc x
  rcases List.mem_cons.mp hpc with rfl | hpc
  · obtain ⟨r, rfl⟩ := eq_col x
    dsimp only
    show k0_pay3 (F := Ideal) _ (ix2 r (0 : Fin 1)) = nextBlock x0 x1 (r0_3.emb (ix2 r (0 : Fin 1)))
    rw [emb_col3]
    refine (pay3_at _ r).trans ?_
    refine (vel1_row _ _ _ _ r).trans ?_
    rw [flat1, flat2, flat3, flatA]; rfl
  rcases List.mem_cons.mp hpc with rfl | hpc
  · obtain ⟨r, rfl⟩ := eq_col x
    dsimp only
    show k0_pay2 (F := Ideal) _ (ix2 r (0 : Fin 1)) = nextBlock x0 x1 (r0_2.emb (ix2 r (0 : Fin 1)))
    rw [emb_col2]
    refine (pay2_at _ r).trans ?_
    refine (vel0_row _ _ _ _ r).trans ?_
    rw [flat1, flat2, flat3, flatA]; rfl
  rcases List.mem_cons.mp hpc with rfl | hpc
  · obtain ⟨r, rfl⟩ := eq_col x
    dsimp only
    show k0_pay1 (F := Ideal) _ (ix2 r (0 : Fin 1)) = nextBlock x0 x1 (r0_1.emb (ix2 r (0 : Fin 1)))
    rw [emb_col1]
    refine (pay1_at _ r).trans ?_
    refine (pos1_row _ _ _ _ r).trans ?_
    rw [flat1, flat2, flat3, flatA]; rfl
  rcases List.mem_cons.mp hpc with rfl | hpc
  · obtain ⟨r, rfl⟩ := eq_col x
    dsimp only
    show k0_pay22 (F := Ideal) _ _ _ _ _ _ _ _ _ (ix2 r (0 : Fin 1)) = nextBlock x0 x1 (r0_0.emb (ix2 r (0 : Fin 1)))
    rw [emb_col0]
    refine (pos0_row _ _ _ _ _ r).trans ?_
    rw [flat0, flat1, flat2, flat3, flatA]; rfl
  nomatch hpc

end Cert.KernelIdeal.Body

end
-- ==== Proof.Whole.lean ====
/-
  From blocks to the array. The grid has 1024 points; point `t` stages rows 8192·t … 8192·t + 8191 of the state,
  of the action and of the result (every index map is `t ↦ (t, 0)`), so the blocks of the result tile it. What point
  `t` writes back is the body's block (`Body.out_eq`: each row of the input blocks moved one step), and a row of a
  block is the same row of the arrays, so it is block `t` of `Pendulum.next` of the arrays; every row lies in the
  block of the point `row / 8192`; hence after the run the result array is `Pendulum.next` of the arguments.
-/
import proofs.«176411_j82085414961423_1_alg».proof.Proof.Gen.KernelIdeal.Value
import proofs.«176411_j82085414961423_1_alg».proof.Proof.Block

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Pendulum
open Idealize.ShloMosaic.Pipeline (Dat)

variable (m : (ℓ : Loc nD τ sig) → Buf (Elt Ideal) ℓ) (ρ : Dev nD → PrngReg)

/-- Every window's block index at point `t` is `(t, 0)` (decided over the 1024 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the arrays' step. -/
theorem flushed_eq (c : Dev nD) (t : Fin cfg0.N) :
    (dats m 0 c).flushed 2 t
      = ((cfg0.win 2).blk t).view.read (Elt Ideal) (next (V m c main_arg0) (V m c main_arg1)) := by
  rw [flushed2]
  obtain ⟨e00, e01, e10, e11, e20, e21⟩ := idx_facts t
  funext y
  obtain ⟨r, j, rfl⟩ : ∃ (r : Fin 8192) (j : Fin 4), y = ix2 r j := ⟨y 0, y 1, eq_ix2 y⟩
  have ht : t.val < 1024 := lt_of_lt_of_eq t.isLt N_0
  have hR : t.val * 8192 + r.val < 8388608 := by have := r.isLt; omega
  show out0_2 (iblk m c 0 t) (iblk m c 1 t) (ix2 r j)
    = next (V m c main_arg0) (V m c main_arg1) (((cfg0.win 2).blk t).view.emb (ix2 r j))
  rw [show ((cfg0.win 2).blk t).view.emb (ix2 r j) = ix2 (⟨t.val * 8192 + r.val, hR⟩ : Fin 8388608) j from by
    funext a; apply Fin.ext
    match a with
    | ⟨0, _⟩ => show win0_2.index t (0 : Fin 2) * 8192 + 1 * r.val = t.val * 8192 + r.val; rw [e20]; omega
    | ⟨1, _⟩ => show win0_2.index t (1 : Fin 2) * 4 + 1 * j.val = j.val; rw [e21]; omega]
  refine (congrFun (Body.out_eq (iblk m c 0 t) (iblk m c 1 t)) (ix2 r j)).trans ?_
  refine nextBlock_eq_next _ _ _ _ r ⟨t.val * 8192 + r.val, hR⟩ j (fun k => ?_) ?_
  · show V m c main_arg0 (((cfg0.win 0).blk t).view.emb (ix2 r k)) = V m c main_arg0 (ix2 ⟨t.val * 8192 + r.val, hR⟩ k)
    congr 1; funext a; apply Fin.ext
    match a with
    | ⟨0, _⟩ => show win0_0.index t (0 : Fin 2) * 8192 + 1 * r.val = t.val * 8192 + r.val; rw [e00]; omega
    | ⟨1, _⟩ => show win0_0.index t (1 : Fin 2) * 4 + 1 * k.val = k.val; rw [e01]; omega
  · show V m c main_arg1 (((cfg0.win 1).blk t).view.emb (ix2 r (0 : Fin 1))) = V m c main_arg1 (ix2 ⟨t.val * 8192 + r.val, hR⟩ (0 : Fin 1))
    congr 1; funext a; apply Fin.ext
    match a with
    | ⟨0, _⟩ => show win0_1.index t (0 : Fin 2) * 8192 + 1 * r.val = t.val * 8192 + r.val; rw [e10]; omega
    | ⟨1, _⟩ => show win0_1.index t (1 : Fin 2) * 1 + 1 * 0 = 0; rw [e11]

/-- An index of the result array is in point `t`'s block iff each coordinate is in the block's range on its axis. -/
theorem mem_blk (t : Fin cfg0.N) (i : S8388608x4.Idx) :
    i ∈ ((cfg0.win 2).blk t).view.set ↔ ∀ a : Fin 2, win0_2.index t a * S8192x4.size a ≤ (i a).val ∧ (i a).val < win0_2.index t a * S8192x4.size a + S8192x4.size a := by
  show i ∈ ((View.whole main_v0).slice (win0_2.rect t)).set ↔ _
  rw [View.set_slice_whole, Rect.mem_set_unit]
  exact Iff.rfl

/-- Every index of the result array lies in the block of the point its row divided by 8192 names. -/
theorem covered (i : S8388608x4.Idx) : ∃ t : Fin cfg0.N, (cfg0.win 2).flush t = true ∧ i ∈ ((cfg0.win 2).blk t).view.set := by
  have hi0 : (i 0).val < 8388608 := (i 0).isLt
  have hi1 : (i 1).val < 4 := (i 1).isLt
  have hN : cfg0.N = 1024 := N_0
  let t : Fin cfg0.N := ⟨(i 0).val / 8192, by rw [hN]; omega⟩
  obtain ⟨-, -, -, -, e20, e21⟩ := idx_facts t
  have ht : t.val = (i 0).val / 8192 := rfl
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; rw [e20, ht]; omega
  | ⟨1, _⟩ => show win0_2.index t (1 : Fin 2) * 4 ≤ (i 1).val ∧ (i 1).val < win0_2.index t (1 : Fin 2) * 4 + 4; rw [e21]; omega

/-- THE RESULT ARRAY after the run: every row of the arguments moved one step. -/
theorem final (c : Dev nD) :
    (dats m 0 c).arrAt 2 cfg0.N = next (m ((c : Thread nD τ).loc main_arg0)) (m ((c : Thread nD τ).loc main_arg1)) :=
  (dats m 0 c).arrAt_eq_of_cover 2 (next (V m c main_arg0) (V m c main_arg1)) (fun t _ => flushed_eq m c t) covered

/-- The kernel's run, read: the result at the arrays' step, the arguments unchanged. -/
theorem run : θ_run defs (onTc (τ := τ) (main (F := Ideal))) ⟨m, fun _ => 0, ρ⟩ fun r => ∀ c : Dev nD,
      r.2.mem ((c : Thread nD τ).loc main_v0) = next (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.Reference.lean ====
/-
  The reference, read row by row: its result array is `Pendulum.next` of the state and action arrays.
  The reference slices the state's columns β, da, db out as flat vectors and the action as one, computes the mass
  matrix, the Coriolis, gravity and motor terms and the two accelerations as flat vectors (each stage below is that
  stage at a row `R`, as the row's term of `Cert.Pendulum`), stacks (da, db, dd1, dd2) as the four columns of the
  derivative, adds dt times it to the state, keeps columns 2 and 3 of that as the new velocities, adds dt times them
  to columns 0 and 1 of the state as the new angles, and joins angles and velocities. It squares before it scales,
  negates where the step subtracts from zero, and subtracts the (zero) gravity term of the arm from r1:
  `Pendulum`'s unconditional laws of the extended reals absorb each of these.
-/
import proofs.«176411_j82085414961423_1_alg».proof.Proof.Gen.ReferenceIdeal.Read
import proofs.«176411_j82085414961423_1_alg».proof.Proof.Pendulum
import Idealize.ShloMosaic.Lib.Pipeline.Value
import Idealize.ShloMosaic.Lib.ValueIdx

noncomputable section

namespace Cert.ReferenceIdeal.Rows

open Cert.ReferenceIdeal Cert.ReferenceIdeal.Gen Cert.ReferenceIdeal.Read
open Idealize.ShloMosaic Idealize.ShloMosaic.ValueIdx Cert.Pendulum

variable (X : (⟨S8388608x4, .f32⟩ : BufTy).Contents (Elt Ideal)) (A : (⟨S8388608x1, .f32⟩ : BufTy).Contents (Elt Ideal))
variable (R : Fin 8388608)

/-! ## The sliced columns at a row -/

theorem beta_at : val_main_v1 (F := Ideal) X (ix1 R) = X (ix2 R (1 : Fin 4)) := by
  rw [val_main_v1_apply, val_main_v0_apply]
  congr 1; funext a; apply Fin.ext
  match a with
  | ⟨0, _⟩ => show R.val / 1 = R.val; exact Nat.div_one _
  | ⟨1, _⟩ => show 1 + 0 = 1; rfl

theorem da_at : val_main_v3 (F := Ideal) X (ix1 R) = X (ix2 R (2 : Fin 4)) := by
  rw [val_main_v3_apply, val_main_v2_apply]
  congr 1; funext a; apply Fin.ext
  match a with
  | ⟨0, _⟩ => show R.val / 1 = R.val; exact Nat.div_one _
  | ⟨1, _⟩ => show 2 + 0 = 2; rfl

theorem db_at : val_main_v5 (F := Ideal) X (ix1 R) = X (ix2 R (3 : Fin 4)) := by
  rw [val_main_v5_apply, val_main_v4_apply]
  congr 1; funext a; apply Fin.ext
  match a with
  | ⟨0, _⟩ => show R.val / 1 = R.val; exact Nat.div_one _
  | ⟨1, _⟩ => show 3 + 0 = 3; rfl

theorem act_at : val_main_v37 (F := Ideal) A (ix1 R) = A (ix2 R (0 : Fin 1)) := by
  rw [val_main_v37_apply]
  congr 1; funext a; apply Fin.ext
  match a with
  | ⟨0, _⟩ => show R.val / 1 = R.val; exact Nat.div_one _
  | ⟨1, _⟩ => rfl

/-! ## The stages at a row -/

local notation "β" => X (ix2 R (1 : Fin 4))
local notation "da" => X (ix2 R (2 : Fin 4))
local notation "db" => X (ix2 R (3 : Fin 4))
local notation "ac" => A (ix2 R (0 : Fin 1))

theorem cos_at : val_main_v6 (F := Ideal) X (ix1 R) = Ideal.cos β := by
  rw [val_main_v6_apply, beta_at]; rfl

theorem sin_at : val_main_v7 (F := Ideal) X (ix1 R) = Ideal.sin β := by
  rw [val_main_v7_apply, beta_at]; rfl

theorem m11_at : val_main_v12 (F := Ideal) X (ix1 R) = m11 β := by
  simp only [val_main_v12_apply, val_main_v11_apply, val_main_cst_0_apply, val_main_v10_apply, val_main_v9_apply,
    val_main_cst_apply, val_main_v8_apply, sin_at]
  exact m11_sq _

theorem J2_at : val_main_v13 (F := Ideal) (ix1 R) = J2 := by
  simp only [val_main_v13_apply, val_main_cst_1_apply]; rfl

theorem m12_at : val_main_v15 (F := Ideal) X (ix1 R) = m12 β := by
  simp only [val_main_v15_apply, val_main_v14_apply, val_main_cst_2_apply, cos_at]; rfl

theorem n1_at : val_main_v26 (F := Ideal) X (ix1 R) = n1 β da db := by
  simp only [val_main_v26_apply, val_main_v25_apply, val_main_v24_apply, val_main_v23_apply, val_main_cst_5_apply,
    val_main_v22_apply, val_main_v21_apply, val_main_v20_apply, val_main_v19_apply, val_main_v18_apply,
    val_main_cst_4_apply, val_main_v17_apply, val_main_v16_apply, val_main_cst_3_apply, sin_at, cos_at, da_at, db_at]
  exact n1_sq _ _ _

theorem n2_at : val_main_v33 (F := Ideal) X (ix1 R) = n2 β da := by
  simp only [val_main_v33_apply, val_main_v32_apply, val_main_v31_apply, val_main_v30_apply, val_main_cst_7_apply,
    val_main_v29_apply, val_main_v28_apply, val_main_v27_apply, val_main_cst_6_apply, sin_at, cos_at, da_at]
  exact n2_sq _ _

theorem zero_at : val_main_v34 (F := Ideal) (ix1 R) = Z := by
  simp only [val_main_v34_apply, val_main_cst_8_apply]; rfl

theorem g2_at : val_main_v36 (F := Ideal) X (ix1 R) = g2 β := by
  simp only [val_main_v36_apply, val_main_v35_apply, val_main_cst_9_apply, sin_at]; rfl

theorem tau_at : val_main_v46 (F := Ideal) X A (ix1 R) = tau da ac := by
  simp only [val_main_v46_apply, val_main_v45_apply, val_main_cst_13_apply, val_main_v44_apply, val_main_v43_apply,
    val_main_cst_12_apply, val_main_v42_apply, val_main_v41_apply, val_main_v40_apply, val_main_cst_11_apply,
    val_main_v39_apply, val_main_v38_apply, val_main_cst_10_apply, da_at, act_at]
  rfl

theorem r1_at : val_main_v48 (F := Ideal) X A (ix1 R) = r1 β da db ac := by
  simp only [val_main_v48_apply, val_main_v47_apply, tau_at, n1_at, zero_at]
  exact r1_sub_zero _ _ _ _

theorem r2_at : val_main_v50 (F := Ideal) X (ix1 R) = r2 β da := by
  simp only [val_main_v50_apply, val_main_v49_apply, n2_at, g2_at]
  exact r2_neg _ _

theorem det_at : val_main_v53 (F := Ideal) X (ix1 R) = det β := by
  simp only [val_main_v53_apply, val_main_v52_apply, val_main_v51_apply, m11_at, m12_at, J2_at]; rfl

theorem dd1_at : val_main_v57 (F := Ideal) X A (ix1 R) = dd1 β da db ac := by
  simp only [val_main_v57_apply, val_main_v56_apply, val_main_v55_apply, val_main_v54_apply, J2_at, r1_at, r2_at,
    m12_at, det_at]
  rfl

theorem dd2_at : val_main_v62 (F := Ideal) X A (ix1 R) = dd2 β da db ac := by
  simp only [val_main_v62_apply, val_main_v61_apply, val_main_v60_apply, val_main_v59_apply, val_main_v58_apply,
    r1_at, r2_at, m11_at, m12_at, det_at]
  exact dd2_neg _ _ _ _

/-! ## Joining columns -/

/-- Four one-column arrays joined side by side: entry `(R, j)` is column `j`'s entry `R`. -/
theorem join4_at (c0 c1 c2 c3 : S8388608x1.Idx → EReal) (j : Fin 4) :
    concatenate S8388608x4 1 [⟨S8388608x1, c0⟩, ⟨S8388608x1, c1⟩, ⟨S8388608x1, c2⟩, ⟨S8388608x1, c3⟩]
        concatenates_S8388608x1_S8388608x1_S8388608x1_S8388608x1_S8388608x4_d1 (ix2 R j)
      = (match j with | ⟨0, _⟩ => c0 | ⟨1, _⟩ => c1 | ⟨2, _⟩ => c2 | ⟨3, _⟩ => c3) (ix2 R (0 : Fin 1)) := by
  have hi : ∀ (q : Fin 4) (b : Fin S8388608x1.rank), b.cast (rfl : S8388608x1.rank = S8388608x4.rank) ≠ (1 : Fin S8388608x4.rank) →
      ((ix2 R (0 : Fin 1) : S8388608x1.Idx) b).val = ((ix2 R q : S8388608x4.Idx) (b.cast rfl)).val := fun q b => by
    match b with
    | ⟨0, _⟩ => exact fun _ => rfl
    | ⟨1, _⟩ => exact fun h => absurd (Fin.ext rfl) h
  match j with
  | ⟨0, _⟩ => exact concatenate_apply_piece 1 _ _ (ix2 R (0 : Fin 4)) 0 (by simp) S8388608x1 c0 rfl rfl 0 (by rfl) (ix2 R (0 : Fin 1)) (hi 0) rfl
  | ⟨1, _⟩ => exact concatenate_apply_piece 1 _ _ (ix2 R (1 : Fin 4)) 1 (by simp) S8388608x1 c1 rfl rfl 1 (by rfl) (ix2 R (0 : Fin 1)) (hi 1) rfl
  | ⟨2, _⟩ => exact concatenate_apply_piece 1 _ _ (ix2 R (2 : Fin 4)) 2 (by simp) S8388608x1 c2 rfl rfl 2 (by rfl) (ix2 R (0 : Fin 1)) (hi 2) rfl
  | ⟨3, _⟩ => exact concatenate_apply_piece 1 _ _ (ix2 R (3 : Fin 4)) 3 (by simp) S8388608x1 c3 rfl rfl 3 (by rfl) (ix2 R (0 : Fin 1)) (hi 3) rfl

/-- Two two-column arrays joined side by side. -/
theorem join2_at (u v : S8388608x2.Idx → EReal) (j : Fin 4) :
    concatenate S8388608x4 1 [⟨S8388608x2, u⟩, ⟨S8388608x2, v⟩] concatenates_S8388608x2_S8388608x2_S8388608x4_d1 (ix2 R j)
      = match j with
        | ⟨0, _⟩ => u (ix2 R (0 : Fin 2)) | ⟨1, _⟩ => u (ix2 R (1 : Fin 2))
        | ⟨2, _⟩ => v (ix2 R (0 : Fin 2)) | ⟨3, _⟩ => v (ix2 R (1 : Fin 2)) := by
  match j with
  | ⟨0, _⟩ =>
    exact concatenate_pair_apply_left 1 u v _ (ix2 R (0 : Fin 4)) rfl (ix2 R (0 : Fin 2)) (fun b => by
      match b with | ⟨0, _⟩ => rfl | ⟨1, _⟩ => rfl)
  | ⟨1, _⟩ =>
    exact concatenate_pair_apply_left 1 u v _ (ix2 R (1 : Fin 4)) rfl (ix2 R (1 : Fin 2)) (fun b => by
      match b with | ⟨0, _⟩ => rfl | ⟨1, _⟩ => rfl)
  | ⟨2, _⟩ =>
    exact concatenate_pair_apply_right 1 u v _ (ix2 R (2 : Fin 4)) rfl rfl (ix2 R (0 : Fin 2)) (fun b => by
      match b with | ⟨0, _⟩ => exact fun _ => rfl | ⟨1, _⟩ => exact fun h => absurd (Fin.ext rfl) h) rfl
  | ⟨3, _⟩ =>
    exact concatenate_pair_apply_right 1 u v _ (ix2 R (3 : Fin 4)) rfl rfl (ix2 R (1 : Fin 2)) (fun b => by
      match b with | ⟨0, _⟩ => exact fun _ => rfl | ⟨1, _⟩ => exact fun h => absurd (Fin.ext rfl) h) rfl

/-! ## The derivative, the moved state, and the result at a row -/

/-- A flat vector broadcast to one column reads, at row `R`, the vector's entry `R`. -/
theorem col_idx (i : S8388608.Idx) (h : (i 0).val = R.val) : i = ix1 R :=
  (eq_ix1 i).trans (congrArg ix1 (Fin.ext h))

/-- The stacked derivative (da, db, dd1, dd2) at `(R, j)`. -/
theorem deriv_at (j : Fin 4) : val_main_v67 (F := Ideal) X A (ix2 R j)
    = match j with | ⟨0, _⟩ => da | ⟨1, _⟩ => db | ⟨2, _⟩ => dd1 β da db ac | ⟨3, _⟩ => dd2 β da db ac := by
  unfold val_main_v67
  rw [join4_at]
  match j with
  | ⟨0, _⟩ =>
    show val_main_v63 (F := Ideal) X (ix2 R (0 : Fin 1)) = _
    rw [val_main_v63_apply, col_idx R (idx_main_v63 (ix2 R (0 : Fin 1))) rfl, da_at]
  | ⟨1, _⟩ =>
    show val_main_v64 (F := Ideal) X (ix2 R (0 : Fin 1)) = _
    rw [val_main_v64_apply, col_idx R (idx_main_v64 (ix2 R (0 : Fin 1))) rfl, db_at]
  | ⟨2, _⟩ =>
    show val_main_v65 (F := Ideal) X A (ix2 R (0 : Fin 1)) = _
    rw [val_main_v65_apply, col_idx R (idx_main_v65 (ix2 R (0 : Fin 1))) rfl, dd1_at]
  | ⟨3, _⟩ =>
    show val_main_v66 (F := Ideal) X A (ix2 R (0 : Fin 1)) = _
    rw [val_main_v66_apply, col_idx R (idx_main_v66 (ix2 R (0 : Fin 1))) rfl, dd2_at]

/-- The state moved by dt times the derivative, at `(R, j)`. -/
theorem moved_at (j : Fin 4) : val_main_v70 (F := Ideal) X A (ix2 R j)
    = X (ix2 R j) + (match j with | ⟨0, _⟩ => da | ⟨1, _⟩ => db | ⟨2, _⟩ => dd1 β da db ac | ⟨3, _⟩ => dd2 β da db ac) * DT := by
  rw [val_main_v70_apply, val_main_v69_apply, val_main_v68_apply, val_main_cst_14_apply, deriv_at]
  rfl

/-- The new velocities: columns 2 and 3 of the moved state. -/
theorem vel_at0 : val_main_v71 (F := Ideal) X A (ix2 R (0 : Fin 2)) = vel0 β da db ac := by
  rw [val_main_v71_apply,
    show idx_main_v71 (ix2 R (0 : Fin 2)) = ix2 R (2 : Fin 4) from funext fun a => Fin.ext (by
      match a with | ⟨0, _⟩ => rfl | ⟨1, _⟩ => rfl),
    moved_at]
  rfl
theorem vel_at1 : val_main_v71 (F := Ideal) X A (ix2 R (1 : Fin 2)) = vel1 β da db ac := by
  rw [val_main_v71_apply,
    show idx_main_v71 (ix2 R (1 : Fin 2)) = ix2 R (3 : Fin 4) from funext fun a => Fin.ext (by
      match a with | ⟨0, _⟩ => rfl | ⟨1, _⟩ => rfl),
    moved_at]
  rfl

/-- The new angles: columns 0 and 1 of the state moved by dt times the new velocities. -/
theorem pos_at0 : val_main_v75 (F := Ideal) X A (ix2 R (0 : Fin 2)) = pos0 (X (ix2 R (0 : Fin 4))) β da db ac := by
  rw [val_main_v75_apply, val_main_v74_apply, val_main_v73_apply, val_main_cst_15_apply, val_main_v72_apply, vel_at0,
    show idx_main_v72 (ix2 R (0 : Fin 2)) = ix2 R (0 : Fin 4) from funext fun a => Fin.ext (by
      match a with | ⟨0, _⟩ => rfl | ⟨1, _⟩ => rfl)]
  rfl
theorem pos_at1 : val_main_v75 (F := Ideal) X A (ix2 R (1 : Fin 2)) = pos1 β da db ac := by
  rw [val_main_v75_apply, val_main_v74_apply, val_main_v73_apply, val_main_cst_15_apply, val_main_v72_apply, vel_at1,
    show idx_main_v72 (ix2 R (1 : Fin 2)) = ix2 R (1 : Fin 4) from funext fun a => Fin.ext (by
      match a with | ⟨0, _⟩ => rfl | ⟨1, _⟩ => rfl)]
  rfl

end Cert.ReferenceIdeal.Rows

namespace Cert.ReferenceIdeal.Rows

open Cert.ReferenceIdeal Cert.ReferenceIdeal.Gen Cert.ReferenceIdeal.Read
open Idealize.ShloMosaic Idealize.ShloMosaic.ValueIdx Cert.Pendulum

/-- THE REFERENCE'S RESULT: angles and velocities joined, every row one step on. -/
theorem result_eq (X : (⟨S8388608x4, .f32⟩ : BufTy).Contents (Elt Ideal)) (A : (⟨S8388608x1, .f32⟩ : BufTy).Contents (Elt Ideal)) :
    val_main_v76 (F := Ideal) X A = next X A := by
  funext i
  obtain ⟨R, j, rfl⟩ : ∃ (R : Fin 8388608) (j : Fin 4), i = ix2 R j := ⟨i 0, i 1, eq_ix2 i⟩
  unfold val_main_v76
  rw [join2_at]
  match j with
  | ⟨0, _⟩ => exact pos_at0 X A R
  | ⟨1, _⟩ => exact pos_at1 X A R
  | ⟨2, _⟩ => exact vel_at0 X A R
  | ⟨3, _⟩ => exact vel_at1 X A R

end Cert.ReferenceIdeal.Rows

end
-- ==== Proof.lean ====
/-
  A rotary (Furuta) pendulum's explicit time step over 8,388,608 independent rows: the tiled kernel against the plain
  array program, as extended reals.
  Both programs compute, for every row (arm angle, β, da, db) of the state and its action a, the row
  `Cert.Pendulum.step`: the 2×2 mass matrix from sin β and cos β, the Coriolis, gravity and motor terms, the two
  accelerations by Cramer's rule, the velocities moved by dt times the accelerations and the angles by dt times the
  new velocities. Every parameter product is the same binary32 word in both, and both divide (twice by the
  determinant, once by the motor's resistance) where the other does. They differ only in how a product of three
  factors is associated (the array program squares first), in a negation written as a difference from zero, and in
  a zero the array program subtracts: on the extended reals multiplication is associative, 0 − x = −x and x − 0 = x
  with no condition, so the precondition is never opened.
  Kernel side: the body's four stored columns are the step's four coordinates of each row of its block
  (Proof/Block.lean), the 1024 blocks tile the result (Proof/Whole.lean). Reference side: its stages read row by row
  (Proof/Reference.lean). The frames are the generated ones; the ledger of the idealization is empty.
-/
import proofs.«176411_j82085414961423_1_alg».proof.Defs
import proofs.«176411_j82085414961423_1_alg».proof.Proof.Gen.Kernel
import proofs.«176411_j82085414961423_1_alg».proof.Proof.Gen.Kernel.Skeleton
import proofs.«176411_j82085414961423_1_alg».proof.Proof.Gen.Kernel.Launch
import proofs.«176411_j82085414961423_1_alg».proof.Proof.Gen.Kernel.Points
import proofs.«176411_j82085414961423_1_alg».proof.Proof.Gen.Kernel.Frame
import proofs.«176411_j82085414961423_1_alg».proof.Proof.Gen.KernelIdeal
import proofs.«176411_j82085414961423_1_alg».proof.Proof.Gen.KernelIdeal.Skeleton
import proofs.«176411_j82085414961423_1_alg».proof.Proof.Gen.KernelIdeal.Launch
import proofs.«176411_j82085414961423_1_alg».proof.Proof.Gen.KernelIdeal.Points
import proofs.«176411_j82085414961423_1_alg».proof.Proof.Gen.KernelIdeal.Frame
import proofs.«176411_j82085414961423_1_alg».proof.Proof.Gen.ReferenceIdeal
import proofs.«176411_j82085414961423_1_alg».proof.Proof.Gen.Pre_finite_inputs
import proofs.«176411_j82085414961423_1_alg».proof.Proof.Gen.KernelIdeal.Value
import proofs.«176411_j82085414961423_1_alg».proof.Proof.Gen.ReferenceIdeal.Run
import proofs.«176411_j82085414961423_1_alg».proof.Proof.Gen.ReferenceIdeal.Read
import proofs.«176411_j82085414961423_1_alg».proof.Proof.Pendulum
import proofs.«176411_j82085414961423_1_alg».proof.Proof.Block
import proofs.«176411_j82085414961423_1_alg».proof.Proof.Whole
import proofs.«176411_j82085414961423_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The array program runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the result array at `Pendulum.next` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, Cert.ReferenceIdeal.Rows.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
